-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 76
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x64, .f32⟩
  | .hbm, ⟨75, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  One SAGE layer as a function of whole arrays, index by index, on the extended reals.

  A layer maps node features `h` and aggregated neighbour features `a` (both [100000, 128]) to
  `h · Ws + a · Wn + b`: entry (r, q) of the result is
      (∑ₖ h[r, k] · Ws[k, q]  +  ∑ₖ a[r, k] · Wn[k, q])  +  b[0, q],
  the two contractions over the 128 feature columns, the bias a [1, D] row. The first two layers clamp the
  result below at zero (ReLU); the last (D = 64) does not. The grouping of the three summands is the one
  both programs use, so no law of the extended reals beyond reading the operations at an index is needed.
-/
import proofs.«411930_j52673478918617_1_alg».proof.KernelIdeal
import Idealize.ShloMosaic.PureOps.Ideal
import Idealize.ShloMosaic.Lib.ValueIdx

noncomputable section

namespace Cert.Sage

open Idealize.ShloMosaic Cert.KernelIdeal

/-- Row `i 0`, column `k` of a [100000, 128] array: where the left factor of entry `i`'s `k`-th product sits. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Row `k`, column `i 1` of a [128, 128] weight: the right factor. -/
abbrev colAt (i : S100000x128.Idx) (k : Fin 128) : S128x128.Idx := fun a => match a with
  | ⟨0, _⟩ => ⟨k.val, k.isLt⟩
  | ⟨1, _⟩ => ⟨(i 1).val, (i 1).isLt⟩
/-- Column `i 1` of the [1, 128] bias row. -/
abbrev biasAt (i : S100000x128.Idx) : S1x128.Idx := fun a => match a with
  | ⟨0, _⟩ => ⟨0, Nat.one_pos⟩
  | ⟨1, _⟩ => ⟨(i 1).val, (i 1).isLt⟩

/-- The same three places for the last layer, whose result is [100000, 64]. -/
abbrev rowAt64 (i : S100000x64.Idx) (k : Fin 128) : S100000x128.Idx := fun a => match a with
  | ⟨0, _⟩ => ⟨(i 0).val, (i 0).isLt⟩
  | ⟨1, _⟩ => ⟨k.val, k.isLt⟩
abbrev colAt64 (i : S100000x64.Idx) (k : Fin 128) : S128x64.Idx := fun a => match a with
  | ⟨0, _⟩ => ⟨k.val, k.isLt⟩
  | ⟨1, _⟩ => ⟨(i 1).val, (i 1).isLt⟩
abbrev biasAt64 (i : S100000x64.Idx) : S1x64.Idx := fun a => match a with
  | ⟨0, _⟩ => ⟨0, Nat.one_pos⟩
  | ⟨1, _⟩ => ⟨(i 1).val, (i 1).isLt⟩

/-- A hidden layer: `max (h · Ws + a · Wn + b, 0)`, entry by entry. -/
def layerRelu (h a : FVec Ideal S100000x128 .f32) (ws wn : FVec Ideal S128x128 .f32) (b : FVec Ideal S1x128 .f32) :
    FVec Ideal S100000x128 .f32 := fun i =>
  max ((∑ k : Fin 128, h (rowAt i k) * ws (colAt i k) + ∑ k : Fin 128, a (rowAt i k) * wn (colAt i k)) + b (biasAt i))
    (Ideal.ofBits .f32 0x00000000#32)

/-- The output layer: `h · Ws + a · Wn + b` into 64 columns, no clamp. -/
def layerLin (h a : FVec Ideal S100000x128 .f32) (ws wn : FVec Ideal S128x64 .f32) (b : FVec Ideal S1x64 .f32) :
    FVec Ideal S100000x64 .f32 := fun i =>
  (∑ k : Fin 128, h (rowAt64 i k) * ws (colAt64 i k) + ∑ k : Fin 128, a (rowAt64 i k) * wn (colAt64 i k)) + b (biasAt64 i)

end Cert.Sage

end
-- ==== Proof.SageNet.lean ====
/-
  The whole network as one function of the twelve argument arrays.

  Both programs share the irregular part of a layer: the in-degree of every node (a scatter-add of ones over `dst`),
  its reciprocal clamped at one, and the mean aggregation `agg h = segment_sum (h[src], dst) · (1 / max (deg, 1))`
  — a gather of rows of `h` at the (wrapped) source indices, a scatter-add of those rows into the destination rows,
  and a row-wise scaling. These are carried here as whole-array operations and never opened: the two programs apply
  the same operations to the same operands, so the aggregation only has to be recognised, not computed.
  A layer's dense part is `Sage.layerRelu` / `Sage.layerLin`; the bias vector enters as a [1, D] row.
-/
import proofs.«411930_j52673478918617_1_alg».proof.Proof.SageSpec
import proofs.«411930_j52673478918617_1_alg».proof.Proof.Gen.KernelIdeal

noncomputable section

namespace Cert.Sage

open Idealize.ShloMosaic Cert.KernelIdeal Cert.KernelIdeal.Gen

variable {F : FTy → Type} [FloatOps F]

/-- Source indices with negative entries wrapped once by the number of nodes (jnp's indexing convention). -/
def wrapIdx (x1 : (⟨S1600000, .i32⟩ : BufTy).Contents (Elt F)) : (⟨S1600000, .i32⟩ : BufTy).Contents (Elt F) :=
  select (cmpi .slt x1 (broadcastInDim S1600000 ![] bcast_S_S1600000 (constantI S_ 32 0#32)))
    (addi x1 (broadcastInDim S1600000 ![] bcast_S_S1600000 (constantI S_ 32 100000#32))) x1

/-- `1 / max (deg, 1)` as a [100000, 1] column, `deg` the number of edges into each node. -/
def invDegCol (x2 : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 x2)
          (broadcastInDim S1600000 ![] bcast_S_S1600000 (constant S_ .f32 0x3F800000#32)))
        (broadcastInDim S100000 ![] bcast_S_S100000 (constant S_ .f32 0x3F800000#32))))

/-- Mean aggregation over in-neighbours, given the inverse-degree column. -/
def aggWith (h : (⟨S100000x128, .f32⟩ : BufTy).Contents (Elt F)) (x1 x2 : (⟨S1600000, .i32⟩ : BufTy).Contents (Elt F))
    (inv : (⟨S100000x1, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 x2)
      (Host.gather gather_S100000x128_S1600000x1_S1600000x128_1_0_n_n_0_1_1128 h
        (broadcastInDim S1600000x1 ![0] bcast_S1600000_S1600000x1_0 (wrapIdx x1))))
    (broadcastInDim S100000x128 ![0, 1] bcast_S100000x1_S100000x128_0_1 inv)

/-- Mean aggregation of `h` along the edges `src → dst`. -/
def agg (h : (⟨S100000x128, .f32⟩ : BufTy).Contents (Elt F)) (x1 x2 : (⟨S1600000, .i32⟩ : BufTy).Contents (Elt F)) :
    (⟨S100000x128, .f32⟩ : BufTy).Contents (Elt F) :=
  aggWith h x1 x2 (invDegCol x2)

/-- The bias vector as a [1, 128] row. -/
def biasRow (b : (⟨S128, .f32⟩ : BufTy).Contents (Elt F)) : (⟨S1x128, .f32⟩ : BufTy).Contents (Elt F) :=
  shapeCast S1x128 b shapeCasts_S128_S1x128
/-- The last layer's bias as a [1, 64] row. -/
def biasRow64 (b : (⟨S64, .f32⟩ : BufTy).Contents (Elt F)) : (⟨S1x64, .f32⟩ : BufTy).Contents (Elt F) :=
  shapeCast S1x64 b shapeCasts_S64_S1x64

/-- The first hidden layer. -/
def hidden1 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    (⟨S100000x128, .f32⟩ : BufTy).Contents (Elt Ideal) :=
  layerRelu x0 (agg x0 x1 x2) x3 x4 (biasRow x5)

/-- The second hidden layer. -/
def hidden2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    (⟨S100000x128, .f32⟩ : BufTy).Contents (Elt Ideal) :=
  layerRelu (hidden1 x0 x1 x2 x3 x4 x5) (agg (hidden1 x0 x1 x2 x3 x4 x5) x1 x2) x6 x7 (biasRow x8)

/-- The network's output: three stacked layers over one graph. -/
def net (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x64, .f32⟩ : BufTy).Contents (Elt Ideal)) (x11 : (⟨S64, .f32⟩ : BufTy).Contents (Elt Ideal)) :
    (⟨S100000x64, .f32⟩ : BufTy).Contents (Elt Ideal) :=
  layerLin (hidden2 x0 x1 x2 x3 x4 x5 x6 x7 x8) (agg (hidden2 x0 x1 x2 x3 x4 x5 x6 x7 x8) x1 x2) x9 x10 (biasRow64 x11)

end Cert.Sage

end
-- ==== Proof.ChainHost.lean ====
/-
  The buffer contents at the boundaries of the idealized kernel's @main, read at the buffers the three regions take.

  @main is three host stretches, each followed by a region. A host stretch leaves every buffer it does not write as
  it found it, and the buffers it writes at its operations' terms of the buffers it reads: the inverse-degree column
  (first stretch only), the mean aggregation of the current features, and the bias as a one-row matrix. A region
  leaves every buffer but its result array as it found it. So the indices `src`, `dst`, the inverse-degree column and
  the weights reach each stretch unchanged, and each stretch's aggregation is `Sage.aggWith` of the features the region
  before it produced.
-/
import proofs.«411930_j52673478918617_1_alg».proof.Proof.KernelIdealFrameP
import proofs.«411930_j52673478918617_1_alg».proof.Proof.SageNet
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.GenP Cert.Sage

variable {F : FTy → Type} [FloatOps F]
variable (m : (ℓ : Loc nD τ sig) → Buf (Elt F) ℓ) (ρ : Dev nD → PrngReg)

/-! ## The first stretch: from the launch memory to region 0's entry -/

set_option maxHeartbeats 2000000 in
theorem W1_main_arg0 (c : Dev nD) : W1 m ρ c (Proc.devRef .tc main_arg0) = m ((c : Thread nD τ).loc main_arg0) := by
  show StableHlo.after hostOps0 (W0 m ρ c) (Proc.devRef .tc main_arg0) = _
  after_results_simp <;> rfl

set_option maxHeartbeats 2000000 in
theorem W1_main_arg1 (c : Dev nD) : W1 m ρ c (Proc.devRef .tc main_arg1) = m ((c : Thread nD τ).loc main_arg1) := by
  show StableHlo.after hostOps0 (W0 m ρ c) (Proc.devRef .tc main_arg1) = _
  after_results_simp <;> rfl

set_option maxHeartbeats 2000000 in
theorem W1_main_arg2 (c : Dev nD) : W1 m ρ c (Proc.devRef .tc main_arg2) = m ((c : Thread nD τ).loc main_arg2) := by
  show StableHlo.after hostOps0 (W0 m ρ c) (Proc.devRef .tc main_arg2) = _
  after_results_simp <;> rfl

set_option maxHeartbeats 2000000 in
theorem W1_main_arg3 (c : Dev nD) : W1 m ρ c (Proc.devRef .tc main_arg3) = m ((c : Thread nD τ).loc main_arg3) := by
  show StableHlo.after hostOps0 (W0 m ρ c) (Proc.devRef .tc main_arg3) = _
  after_results_simp <;> rfl

set_option maxHeartbeats 2000000 in
theorem W1_main_arg4 (c : Dev nD) : W1 m ρ c (Proc.devRef .tc main_arg4) = m ((c : Thread nD τ).loc main_arg4) := by
  show StableHlo.after hostOps0 (W0 m ρ c) (Proc.devRef .tc main_arg4) = _
  after_results_simp <;> rfl

set_option maxHeartbeats 2000000 in
theorem W1_main_arg6 (c : Dev nD) : W1 m ρ c (Proc.devRef .tc main_arg6) = m ((c : Thread nD τ).loc main_arg6) := by
  show StableHlo.after hostOps0 (W0 m ρ c) (Proc.devRef .tc main_arg6) = _
  after_results_simp <;> rfl

set_option maxHeartbeats 2000000 in
theorem W1_main_arg7 (c : Dev nD) : W1 m ρ c (Proc.devRef .tc main_arg7) = m ((c : Thread nD τ).loc main_arg7) := by
  show StableHlo.after hostOps0 (W0 m ρ c) (Proc.devRef .tc main_arg7) = _
  after_results_simp <;> rfl

set_option maxHeartbeats 2000000 in
theorem W1_main_arg8 (c : Dev nD) : W1 m ρ c (Proc.devRef .tc main_arg8) = m ((c : Thread nD τ).loc main_arg8) := by
  show StableHlo.after hostOps0 (W0 m ρ c) (Proc.devRef .tc main_arg8) = _
  after_results_simp <;> rfl

set_option maxHeartbeats 2000000 in
theorem W1_main_arg9 (c : Dev nD) : W1 m ρ c (Proc.devRef .tc main_arg9) = m ((c : Thread nD τ).loc main_arg9) := by
  show StableHlo.after hostOps0 (W0 m ρ c) (Proc.devRef .tc main_arg9) = _
  after_results_simp <;> rfl

set_option maxHeartbeats 2000000 in
theorem W1_main_arg10 (c : Dev nD) : W1 m ρ c (Proc.devRef .tc main_arg10) = m ((c : Thread nD τ).loc main_arg10) := by
  show StableHlo.after hostOps0 (W0 m ρ c) (Proc.devRef .tc main_arg10) = _
  after_results_simp <;> rfl

set_option maxHeartbeats 2000000 in
theorem W1_main_arg11 (c : Dev nD) : W1 m ρ c (Proc.devRef .tc main_arg11) = m ((c : Thread nD τ).loc main_arg11) := by
  show StableHlo.after hostOps0 (W0 m ρ c) (Proc.devRef .tc main_arg11) = _
  after_results_simp <;> rfl

set_option maxHeartbeats 2000000 in
/-- The inverse-degree column. -/
theorem W1_main_v8 (c : Dev nD) : W1 m ρ c (Proc.devRef .tc main_v8) = invDegCol (m ((c : Thread nD τ).loc main_arg2)) := by
  show StableHlo.after hostOps0 (W0 m ρ c) (Proc.devRef .tc main_v8) = _
  after_results_simp <;> rfl

set_option maxHeartbeats 2000000 in
/-- The aggregation of the input features. -/
theorem W1_main_v20 (c : Dev nD) : W1 m ρ c (Proc.devRef .tc main_v20)
    = agg (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl

set_option maxHeartbeats 2000000 in
/-- The first bias as a row. -/
theorem W1_main_v21 (c : Dev nD) : W1 m ρ c (Proc.devRef .tc main_v21) = biasRow (m ((c : Thread nD τ).loc main_arg5)) := by
  show StableHlo.after hostOps0 (W0 m ρ c) (Proc.devRef .tc main_v21) = _
  after_results_simp <;> rfl

/-! ## Region 0 leaves everything but its result array -/

theorem W2_main_arg1 (c : Dev nD) : W2 m ρ c (Proc.devRef .tc main_arg1) = m ((c : Thread nD τ).loc main_arg1) :=
  (W2_of_ne m ρ c main_arg1 (by decide)).trans (W1_main_arg1 m ρ c)

theorem W2_main_arg2 (c : Dev nD) : W2 m ρ c (Proc.devRef .tc main_arg2) = m ((c : Thread nD τ).loc main_arg2) :=
  (W2_of_ne m ρ c main_arg2 (by decide)).trans (W1_main_arg2 m ρ c)

theorem W2_main_arg6 (c : Dev nD) : W2 m ρ c (Proc.devRef .tc main_arg6) = m ((c : Thread nD τ).loc main_arg6) :=
  (W2_of_ne m ρ c main_arg6 (by decide)).trans (W1_main_arg6 m ρ c)

theorem W2_main_arg7 (c : Dev nD) : W2 m ρ c (Proc.devRef .tc main_arg7) = m ((c : Thread nD τ).loc main_arg7) :=
  (W2_of_ne m ρ c main_arg7 (by decide)).trans (W1_main_arg7 m ρ c)

theorem W2_main_arg8 (c : Dev nD) : W2 m ρ c (Proc.devRef .tc main_arg8) = m ((c : Thread nD τ).loc main_arg8) :=
  (W2_of_ne m ρ c main_arg8 (by decide)).trans (W1_main_arg8 m ρ c)

theorem W2_main_arg9 (c : Dev nD) : W2 m ρ c (Proc.devRef .tc main_arg9) = m ((c : Thread nD τ).loc main_arg9) :=
  (W2_of_ne m ρ c main_arg9 (by decide)).trans (W1_main_arg9 m ρ c)

theorem W2_main_arg10 (c : Dev nD) : W2 m ρ c (Proc.devRef .tc main_arg10) = m ((c : Thread nD τ).loc main_arg10) :=
  (W2_of_ne m ρ c main_arg10 (by decide)).trans (W1_main_arg10 m ρ c)

theorem W2_main_arg11 (c : Dev nD) : W2 m ρ c (Proc.devRef .tc main_arg11) = m ((c : Thread nD τ).loc main_arg11) :=
  (W2_of_ne m ρ c main_arg11 (by decide)).trans (W1_main_arg11 m ρ c)

theorem W2_main_v8 (c : Dev nD) : W2 m ρ c (Proc.devRef .tc main_v8) = invDegCol (m ((c : Thread nD τ).loc main_arg2)) :=
  (W2_of_ne m ρ c main_v8 (by decide)).trans (W1_main_v8 m ρ c)

/-! ## The second stretch: from region 0's exit to region 1's entry -/

set_option maxHeartbeats 2000000 in
theorem W3_main_v22_kept (c : Dev nD) : W3 m ρ c (Proc.devRef .tc main_v22) = W2 m ρ c (Proc.devRef .tc main_v22) := by
  show StableHlo.after hostOps1 (W2 m ρ c) (Proc.devRef .tc main_v22) = _
  after_results_simp <;> rfl

set_option maxHeartbeats 2000000 in
theorem W3_main_arg1_kept (c : Dev nD) : W3 m ρ c (Proc.devRef .tc main_arg1) = W2 m ρ c (Proc.devRef .tc main_arg1) := by
  show StableHlo.after hostOps1 (W2 m ρ c) (Proc.devRef .tc main_arg1) = _
  after_results_simp <;> rfl

set_option maxHeartbeats 2000000 in
theorem W3_main_arg2_kept (c : Dev nD) : W3 m ρ c (Proc.devRef .tc main_arg2) = W2 m ρ c (Proc.devRef .tc main_arg2) := by
  show StableHlo.after hostOps1 (W2 m ρ c) (Proc.devRef .tc main_arg2) = _
  after_results_simp <;> rfl

set_option maxHeartbeats 2000000 in
theorem W3_main_arg6_kept (c : Dev nD) : W3 m ρ c (Proc.devRef .tc main_arg6) = W2 m ρ c (Proc.devRef .tc main_arg6) := by
  show StableHlo.after hostOps1 (W2 m ρ c) (Proc.devRef .tc main_arg6) = _
  after_results_simp <;> rfl

set_option maxHeartbeats 2000000 in
theorem W3_main_arg7_kept (c : Dev nD) : W3 m ρ c (Proc.devRef .tc main_arg7) = W2 m ρ c (Proc.devRef .tc main_arg7) := by
  show StableHlo.after hostOps1 (W2 m ρ c) (Proc.devRef .tc main_arg7) = _
  after_results_simp <;> rfl

set_option maxHeartbeats 2000000 in
theorem W3_main_arg9_kept (c : Dev nD) : W3 m ρ c (Proc.devRef .tc main_arg9) = W2 m ρ c (Proc.devRef .tc main_arg9) := by
  show StableHlo.after hostOps1 (W2 m ρ c) (Proc.devRef .tc main_arg9) = _
  after_results_simp <;> rfl

set_option maxHeartbeats 2000000 in
theorem W3_main_arg10_kept (c : Dev nD) : W3 m ρ c (Proc.devRef .tc main_arg10) = W2 m ρ c (Proc.devRef .tc main_arg10) := by
  show StableHlo.after hostOps1 (W2 m ρ c) (Proc.devRef .tc main_arg10) = _
  after_results_simp <;> rfl

set_option maxHeartbeats 2000000 in
theorem W3_main_arg11_kept (c : Dev nD) : W3 m ρ c (Proc.devRef .tc main_arg11) = W2 m ρ c (Proc.devRef .tc main_arg11) := by
  show StableHlo.after hostOps1 (W2 m ρ c) (Proc.devRef .tc main_arg11) = _
  after_results_simp <;> rfl

set_option maxHeartbeats 2000000 in
theorem W3_main_v8_kept (c : Dev nD) : W3 m ρ c (Proc.devRef .tc main_v8) = W2 m ρ c (Proc.devRef .tc main_v8) := by
  show StableHlo.after hostOps1 (W2 m ρ c) (Proc.devRef .tc main_v8) = _
  after_results_simp <;> rfl

set_option maxHeartbeats 2000000 in
/-- The aggregation of the first hidden layer's features. -/
theorem W3_main_v34 (c : Dev nD) : W3 m ρ c (Proc.devRef .tc main_v34)
    = aggWith (W2 m ρ c (Proc.devRef .tc main_v22)) (W2 m ρ c (Proc.devRef .tc main_arg1)) (W2 m ρ c (Proc.devRef .tc main_arg2)) (W2 m ρ c (Proc.devRef .tc main_v8)) := by
  show StableHlo.after hostOps1 (W2 m ρ c) (Proc.devRef .tc main_v34) = _
  after_results_simp <;> rfl

set_option maxHeartbeats 2000000 in
/-- The second bias as a row. -/
theorem W3_main_v35 (c : Dev nD) : W3 m ρ c (Proc.devRef .tc main_v35) = biasRow (W2 m ρ c (Proc.devRef .tc main_arg8)) := by
  show StableHlo.after hostOps1 (W2 m ρ c) (Proc.devRef .tc main_v35) = _
  after_results_simp <;> rfl

/-! ## Region 1 leaves everything but its result array -/

theorem W4_main_arg1_kept (c : Dev nD) : W4 m ρ c (Proc.devRef .tc main_arg1) = W3 m ρ c (Proc.devRef .tc main_arg1) :=
  W4_of_ne m ρ c main_arg1 (by decide)

theorem W4_main_arg2_kept (c : Dev nD) : W4 m ρ c (Proc.devRef .tc main_arg2) = W3 m ρ c (Proc.devRef .tc main_arg2) :=
  W4_of_ne m ρ c main_arg2 (by decide)

theorem W4_main_arg9_kept (c : Dev nD) : W4 m ρ c (Proc.devRef .tc main_arg9) = W3 m ρ c (Proc.devRef .tc main_arg9) :=
  W4_of_ne m ρ c main_arg9 (by decide)

theorem W4_main_arg10_kept (c : Dev nD) : W4 m ρ c (Proc.devRef .tc main_arg10) = W3 m ρ c (Proc.devRef .tc main_arg10) :=
  W4_of_ne m ρ c main_arg10 (by decide)

theorem W4_main_arg11_kept (c : Dev nD) : W4 m ρ c (Proc.devRef .tc main_arg11) = W3 m ρ c (Proc.devRef .tc main_arg11) :=
  W4_of_ne m ρ c main_arg11 (by decide)

theorem W4_main_v8_kept (c : Dev nD) : W4 m ρ c (Proc.devRef .tc main_v8) = W3 m ρ c (Proc.devRef .tc main_v8) :=
  W4_of_ne m ρ c main_v8 (by decide)

/-! ## The third stretch: from region 1's exit to region 2's entry -/

set_option maxHeartbeats 2000000 in
theorem W5_main_v36_kept (c : Dev nD) : W5 m ρ c (Proc.devRef .tc main_v36) = W4 m ρ c (Proc.devRef .tc main_v36) := by
  show StableHlo.after hostOps2 (W4 m ρ c) (Proc.devRef .tc main_v36) = _
  after_results_simp <;> rfl

set_option maxHeartbeats 2000000 in
theorem W5_main_arg9_kept (c : Dev nD) : W5 m ρ c (Proc.devRef .tc main_arg9) = W4 m ρ c (Proc.devRef .tc main_arg9) := by
  show StableHlo.after hostOps2 (W4 m ρ c) (Proc.devRef .tc main_arg9) = _
  after_results_simp <;> rfl

set_option maxHeartbeats 2000000 in
theorem W5_main_arg10_kept (c : Dev nD) : W5 m ρ c (Proc.devRef .tc main_arg10) = W4 m ρ c (Proc.devRef .tc main_arg10) := by
  show StableHlo.after hostOps2 (W4 m ρ c) (Proc.devRef .tc main_arg10) = _
  after_results_simp <;> rfl

set_option maxHeartbeats 2000000 in
/-- The aggregation of the second hidden layer's features. -/
theorem W5_main_v48 (c : Dev nD) : W5 m ρ c (Proc.devRef .tc main_v48)
    = aggWith (W4 m ρ c (Proc.devRef .tc main_v36)) (W4 m ρ c (Proc.devRef .tc main_arg1)) (W4 m ρ c (Proc.devRef .tc main_arg2)) (W4 m ρ c (Proc.devRef .tc main_v8)) := by
  show StableHlo.after hostOps2 (W4 m ρ c) (Proc.devRef .tc main_v48) = _
  after_results_simp <;> rfl

set_option maxHeartbeats 2000000 in
/-- The third bias as a row. -/
theorem W5_main_v49 (c : Dev nD) : W5 m ρ c (Proc.devRef .tc main_v49) = biasRow64 (W4 m ρ c (Proc.devRef .tc main_arg11)) := by
  show StableHlo.after hostOps2 (W4 m ρ c) (Proc.devRef .tc main_v49) = _
  after_results_simp <;> rfl

end Cert.KernelIdeal.Chain

end
-- ==== Proof.Region0.lean ====
/-
  Region 0 (the first layer's combine step), read as a value: the [100000, 128] result array after the
  pipeline's 50 row blocks have been written back is `Sage.layerRelu` of the five arrays the region is entered with.

  Block `t` holds rows 2000·t … 2000·t + 1999. Inside a block, entry (p, q) of the stored value is
  max ((∑ₖ hblk[p, k] · Ws[k, q] + ∑ₖ ablk[p, k] · Wn[k, q]) + b[0, q], 0): each `tpu.matmul` into a zero accumulator
  is the plain sum over the contracted column, the changes of float format are the identity on the extended reals, and the
  [1, 128] bias row is repeated down the rows. Row p of block t is row 2000·t + p of the array, so the block is the
  restriction of the whole-array function; the 50 blocks tile the array.
-/
import proofs.«411930_j52673478918617_1_alg».proof.Proof.KernelIdealFrameP
import proofs.«411930_j52673478918617_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Cert.KernelIdeal Cert.KernelIdeal.Gen Cert.KernelIdeal.GenP Cert.Sage
open Idealize.ShloMosaic.Pipeline (Dat)

/-! ## The block's matrix product at an entry -/

/-- Row `j 0`, column `k` of a [2000, 128] block. -/
abbrev bRow (j : S2000x128.Idx) (k : Fin 128) : S2000x128.Idx := fun a => match a with
  | ⟨0, _⟩ => ⟨(j 0).val, (j 0).isLt⟩
  | ⟨1, _⟩ => ⟨k.val, k.isLt⟩
/-- Row `k`, column `j 1` of the [128, 128] weight. -/
abbrev bCol (j : S2000x128.Idx) (k : Fin 128) : S128x128.Idx := fun a => match a with
  | ⟨0, _⟩ => ⟨k.val, k.isLt⟩
  | ⟨1, _⟩ => ⟨(j 1).val, (j 1).isLt⟩
/-- Column `j 1` of the [1, 128] bias row. -/
abbrev bBias (j : S2000x128.Idx) : S1x128.Idx := fun a => match a with
  | ⟨0, _⟩ => ⟨0, Nat.one_pos⟩
  | ⟨1, _⟩ => ⟨(j 1).val, (j 1).isLt⟩

theorem lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A `tpu.matmul` of a [2000, 128] block with a [128, 128] weight into the zero accumulator, read at entry `j`: the sum
    over the 128 contracted columns of the products. -/
theorem blockMatmul_apply {φ₁ φ₂ : FTy} (l : FVec Ideal S2000x128 φ₁) (r : FVec Ideal S128x128 φ₂) (j : S2000x128.Idx) :
    matmul (F := Ideal) dot_S2000x128_S128x128_S2000x128_1_0_0_1_n_n none l r (constant (F := Ideal) S2000x128 .f32 0x00000000#32) j
      = ∑ k : Fin 128, l (bRow j k) * r (bCol j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = bRow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = bCol j k := funext fun a => Fin.ext (by
    match a with
    | ⟨0, _⟩ => exact (rhs_0 _ _).trans hk
    | ⟨1, _⟩ => exact rhs_1 _ _)
  rw [el, er]

/-! ## The stored value at an entry -/

/-- What the body stores, at entry `j` of the block, from the five loaded blocks. -/
theorem stored_apply (x0 x1 : Vec Ideal S2000x128 .f32) (x2 x3 : Vec Ideal S128x128 .f32) (x4 : Vec Ideal S1x128 .f32) (j : S2000x128.Idx) :
    k0_pay1 (F := Ideal) x0 x1 x2 x3 x4 j
      = max ((∑ k : Fin 128, x0 (bRow j k) * x2 (bCol j k) + ∑ k : Fin 128, x1 (bRow j k) * x3 (bCol j k)) + x4 (bBias j))
          (Ideal.ofBits .f32 0x00000000#32) := by
  unfold k0_pay1
  simp only [shapeCast_self]
  simp only [ValueIdx.maximumf_apply, ValueIdx.addf_apply, ValueIdx.broadcast_apply]
  rw [blockMatmul_apply, blockMatmul_apply,
    broadcastTo_apply x4 broadcasts_S1x128_S2000x128 j (bBias j) (by intro a; match a with | ⟨0, _⟩ => rfl | ⟨1, _⟩ => rfl)]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the result window sit at row block `t`, column block 0;
    the weights and the bias are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's whole-array function of the arrays the region is entered with. -/
theorem flushed_eq (c : Dev nD) (t : Fin cfg0.N) :
    (dat0 V c).flushed 5 t = ((cfg0.win 5).blk t).view.read (Elt Ideal)
      (layerRelu (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  refine (stored_apply _ _ _ _ _ j).trans ?_
  show _ = layerRelu (V c main_arg0) (V c main_v20) (V c main_arg3) (V c main_arg4) (V c main_v21) (((cfg0.win 5).blk t).view.emb j)
  unfold layerRelu
  have hj0 : (j 0).val < 2000 := (j 0).isLt
  have hj1 : (j 1).val < 128 := (j 1).isLt
  -- a block's coordinate is index × size + 1 × the coordinate inside the block
  have h0 : ∀ k : Fin 128, ((cfg0.win 0).blk t).view.emb (bRow j k) = rowAt (((cfg0.win 5).blk t).view.emb j) k := fun k => by
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have h1 : ∀ k : Fin 128, ((cfg0.win 1).blk t).view.emb (bRow j k) = rowAt (((cfg0.win 5).blk t).view.emb j) k := fun k => by
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  have h2 : ∀ k : Fin 128, ((cfg0.win 2).blk t).view.emb (bCol j k) = colAt (((cfg0.win 5).blk t).view.emb j) k := fun k => by
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have h3 : ∀ k : Fin 128, ((cfg0.win 3).blk t).view.emb (bCol j k) = colAt (((cfg0.win 5).blk t).view.emb j) k := fun k => by
    funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : ((cfg0.win 4).blk t).view.emb (bBias j) = biasAt (((cfg0.win 5).blk t).view.emb j) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  refine congrArg₂ max (congrArg₂ (· + ·) (congrArg₂ (· + ·) (Finset.sum_congr rfl fun k _ => ?_) (Finset.sum_congr rfl fun k _ => ?_)) ?_) rfl
  · exact congrArg₂ (· * ·) (congrArg (V c main_arg0) (h0 k)) (congrArg (V c main_arg3) (h2 k))
  · exact congrArg₂ (· * ·) (congrArg (V c main_v20) (h1 k)) (congrArg (V c main_arg4) (h3 k))
  · exact congrArg (V c main_v21) h4

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- The 50 row blocks tile the array: row `r` is in block `r / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_5 _, ?_⟩
  rw [mem_blk]
  obtain ⟨-, -, -, -, -, -, -, -, -, -, e50, e51⟩ := idx_facts ⟨(i 0).val / 2000, by rw [hN]; omega⟩
  intro a
  match a with
  | ⟨0, _⟩ => show win0_5.index _ (0 : Fin 2) * 2000 ≤ (i 0).val ∧ (i 0).val < win0_5.index _ (0 : Fin 2) * 2000 + 2000; rw [e50]; show (i 0).val / 2000 * 2000 ≤ _ ∧ _ < (i 0).val / 2000 * 2000 + 2000; omega
  | ⟨1, _⟩ => show win0_5.index _ (1 : Fin 2) * 128 ≤ (i 1).val ∧ (i 1).val < win0_5.index _ (1 : Fin 2) * 128 + 128; rw [e51]; omega

/-- THE RESULT ARRAY of region 0 after its last write-back: the hidden layer of the arrays it was entered with. -/
theorem final (c : Dev nD) :
    (dat0 V c).arrAt 5 cfg0.N = layerRelu (V c main_arg0) (V c main_v20) (V c main_arg3) (V c main_arg4) (V c main_v21) :=
  (dat0 V c).arrAt_eq_of_cover 5 _ (fun t _ => flushed_eq V c t) cover

end Cert.KernelIdeal.Region0

end
-- ==== Proof.Region1.lean ====
/-
  Region 1 (the second layer's combine step), read as a value: the [100000, 128] result array after the
  pipeline's 50 row blocks have been written back is `Sage.layerRelu` of the five arrays the region is entered with.

  Block `t` holds rows 2000·t … 2000·t + 1999. Inside a block, entry (p, q) of the stored value is
  max ((∑ₖ hblk[p, k] · Ws[k, q] + ∑ₖ ablk[p, k] · Wn[k, q]) + b[0, q], 0): each `tpu.matmul` into a zero accumulator
  is the plain sum over the contracted column, the changes of float format are the identity on the extended reals, and the
  [1, 128] bias row is repeated down the rows. Row p of block t is row 2000·t + p of the array, so the block is the
  restriction of the whole-array function; the 50 blocks tile the array.
-/
import proofs.«411930_j52673478918617_1_alg».proof.Proof.KernelIdealFrameP
import proofs.«411930_j52673478918617_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem
open Cert.KernelIdeal Cert.KernelIdeal.Gen Cert.KernelIdeal.GenP Cert.Sage
open Idealize.ShloMosaic.Pipeline (Dat)

/-! ## The block's matrix product at an entry -/

/-- Row `j 0`, column `k` of a [2000, 128] block. -/
abbrev bRow (j : S2000x128.Idx) (k : Fin 128) : S2000x128.Idx := fun a => match a with
  | ⟨0, _⟩ => ⟨(j 0).val, (j 0).isLt⟩
  | ⟨1, _⟩ => ⟨k.val, k.isLt⟩
/-- Row `k`, column `j 1` of the [128, 128] weight. -/
abbrev bCol (j : S2000x128.Idx) (k : Fin 128) : S128x128.Idx := fun a => match a with
  | ⟨0, _⟩ => ⟨k.val, k.isLt⟩
  | ⟨1, _⟩ => ⟨(j 1).val, (j 1).isLt⟩
/-- Column `j 1` of the [1, 128] bias row. -/
abbrev bBias (j : S2000x128.Idx) : S1x128.Idx := fun a => match a with
  | ⟨0, _⟩ => ⟨0, Nat.one_pos⟩
  | ⟨1, _⟩ => ⟨(j 1).val, (j 1).isLt⟩

theorem lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A `tpu.matmul` of a [2000, 128] block with a [128, 128] weight into the zero accumulator, read at entry `j`: the sum
    over the 128 contracted columns of the products. -/
theorem blockMatmul_apply {φ₁ φ₂ : FTy} (l : FVec Ideal S2000x128 φ₁) (r : FVec Ideal S128x128 φ₂) (j : S2000x128.Idx) :
    matmul (F := Ideal) dot_S2000x128_S128x128_S2000x128_1_0_0_1_n_n none l r (constant (F := Ideal) S2000x128 .f32 0x00000000#32) j
      = ∑ k : Fin 128, l (bRow j k) * r (bCol j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = bRow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = bCol j k := funext fun a => Fin.ext (by
    match a with
    | ⟨0, _⟩ => exact (rhs_0 _ _).trans hk
    | ⟨1, _⟩ => exact rhs_1 _ _)
  rw [el, er]

/-! ## The stored value at an entry -/

/-- What the body stores, at entry `j` of the block, from the five loaded blocks. -/
theorem stored_apply (x0 x1 : Vec Ideal S2000x128 .f32) (x2 x3 : Vec Ideal S128x128 .f32) (x4 : Vec Ideal S1x128 .f32) (j : S2000x128.Idx) :
    k1_pay1 (F := Ideal) x0 x1 x2 x3 x4 j
      = max ((∑ k : Fin 128, x0 (bRow j k) * x2 (bCol j k) + ∑ k : Fin 128, x1 (bRow j k) * x3 (bCol j k)) + x4 (bBias j))
          (Ideal.ofBits .f32 0x00000000#32) := by
  unfold k1_pay1
  simp only [shapeCast_self]
  simp only [ValueIdx.maximumf_apply, ValueIdx.addf_apply, ValueIdx.broadcast_apply]
  rw [blockMatmul_apply, blockMatmul_apply,
    broadcastTo_apply x4 broadcasts_S1x128_S2000x128 j (bBias j) (by intro a; match a with | ⟨0, _⟩ => rfl | ⟨1, _⟩ => rfl)]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the result window sit at row block `t`, column block 0;
    the weights and the bias are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's whole-array function of the arrays the region is entered with. -/
theorem flushed_eq (c : Dev nD) (t : Fin cfg1.N) :
    (dat1 V c).flushed 5 t = ((cfg1.win 5).blk t).view.read (Elt Ideal)
      (layerRelu (V c main_v22) (V c main_v34) (V c main_arg6) (V c main_arg7) (V c main_v35)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  refine (stored_apply _ _ _ _ _ j).trans ?_
  show _ = layerRelu (V c main_v22) (V c main_v34) (V c main_arg6) (V c main_arg7) (V c main_v35) (((cfg1.win 5).blk t).view.emb j)
  unfold layerRelu
  have hj0 : (j 0).val < 2000 := (j 0).isLt
  have hj1 : (j 1).val < 128 := (j 1).isLt
  -- a block's coordinate is index × size + 1 × the coordinate inside the block
  have h0 : ∀ k : Fin 128, ((cfg1.win 0).blk t).view.emb (bRow j k) = rowAt (((cfg1.win 5).blk t).view.emb j) k := fun k => by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  have h1 : ∀ k : Fin 128, ((cfg1.win 1).blk t).view.emb (bRow j k) = rowAt (((cfg1.win 5).blk t).view.emb j) k := fun k => by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  have h2 : ∀ k : Fin 128, ((cfg1.win 2).blk t).view.emb (bCol j k) = colAt (((cfg1.win 5).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have h3 : ∀ k : Fin 128, ((cfg1.win 3).blk t).view.emb (bCol j k) = colAt (((cfg1.win 5).blk t).view.emb j) k := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have h4 : ((cfg1.win 4).blk t).view.emb (bBias j) = biasAt (((cfg1.win 5).blk t).view.emb j) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  refine congrArg₂ max (congrArg₂ (· + ·) (congrArg₂ (· + ·) (Finset.sum_congr rfl fun k _ => ?_) (Finset.sum_congr rfl fun k _ => ?_)) ?_) rfl
  · exact congrArg₂ (· * ·) (congrArg (V c main_v22) (h0 k)) (congrArg (V c main_arg6) (h2 k))
  · exact congrArg₂ (· * ·) (congrArg (V c main_v34) (h1 k)) (congrArg (V c main_arg7) (h3 k))
  · exact congrArg (V c main_v35) h4

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v36).slice (win1_5.rect t)).set ↔ _
  rw [View.set_slice_whole, Rect.mem_set_unit]
  exact Iff.rfl

/-- The 50 row blocks tile the array: row `r` is in block `r / 2000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_5 _, ?_⟩
  rw [mem_blk]
  obtain ⟨-, -, -, -, -, -, -, -, -, -, e50, e51⟩ := idx_facts ⟨(i 0).val / 2000, by rw [hN]; omega⟩
  intro a
  match a with
  | ⟨0, _⟩ => show win1_5.index _ (0 : Fin 2) * 2000 ≤ (i 0).val ∧ (i 0).val < win1_5.index _ (0 : Fin 2) * 2000 + 2000; rw [e50]; show (i 0).val / 2000 * 2000 ≤ _ ∧ _ < (i 0).val / 2000 * 2000 + 2000; omega
  | ⟨1, _⟩ => show win1_5.index _ (1 : Fin 2) * 128 ≤ (i 1).val ∧ (i 1).val < win1_5.index _ (1 : Fin 2) * 128 + 128; rw [e51]; omega

/-- THE RESULT ARRAY of region 1 after its last write-back: the hidden layer of the arrays it was entered with. -/
theorem final (c : Dev nD) :
    (dat1 V c).arrAt 5 cfg1.N = layerRelu (V c main_v22) (V c main_v34) (V c main_arg6) (V c main_arg7) (V c main_v35) :=
  (dat1 V c).arrAt_eq_of_cover 5 _ (fun t _ => flushed_eq V c t) cover

end Cert.KernelIdeal.Region1

end
-- ==== Proof.Region2.lean ====
/-
  Region 2 (the output layer's combine step), read as a value: the [100000, 64] result array after the
  pipeline's 50 row blocks have been written back is `Sage.layerLin` of the five arrays the region is entered with.

  Block `t` holds rows 2000·t … 2000·t + 1999. Inside a block, entry (p, q) of the stored value is
  (∑ₖ hblk[p, k] · Ws[k, q] + ∑ₖ ablk[p, k] · Wn[k, q]) + b[0, q] with q < 64: each `tpu.matmul` into a zero accumulator is the
  plain sum over the 128 contracted columns, the changes of float format are the identity on the extended reals, and the
  [1, 64] bias row is repeated down the rows; this layer has no clamp. Row p of block t is row 2000·t + p of the array, so
  the block is the restriction of the whole-array function; the 50 blocks tile the array.
-/
import proofs.«411930_j52673478918617_1_alg».proof.Proof.KernelIdealFrameP
import proofs.«411930_j52673478918617_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem
open Cert.KernelIdeal Cert.KernelIdeal.Gen Cert.KernelIdeal.GenP Cert.Sage
open Idealize.ShloMosaic.Pipeline (Dat)

/-! ## The block's matrix product at an entry -/

/-- Row `j 0`, column `k` of a [2000, 128] feature block, for an entry `j` of the [2000, 64] result block. -/
abbrev bRow (j : S2000x64.Idx) (k : Fin 128) : S2000x128.Idx := fun a => match a with
  | ⟨0, _⟩ => ⟨(j 0).val, (j 0).isLt⟩
  | ⟨1, _⟩ => ⟨k.val, k.isLt⟩
/-- Row `k`, column `j 1` of the [128, 64] weight. -/
abbrev bCol (j : S2000x64.Idx) (k : Fin 128) : S128x64.Idx := fun a => match a with
  | ⟨0, _⟩ => ⟨k.val, k.isLt⟩
  | ⟨1, _⟩ => ⟨(j 1).val, (j 1).isLt⟩
/-- Column `j 1` of the [1, 64] bias row. -/
abbrev bBias (j : S2000x64.Idx) : S1x64.Idx := fun a => match a with
  | ⟨0, _⟩ => ⟨0, Nat.one_pos⟩
  | ⟨1, _⟩ => ⟨(j 1).val, (j 1).isLt⟩

theorem lhs_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A `tpu.matmul` of a [2000, 128] block with a [128, 64] weight into the zero accumulator, read at entry `j`: the sum
    over the 128 contracted columns of the products. -/
theorem blockMatmul_apply {φ₁ φ₂ : FTy} (l : FVec Ideal S2000x128 φ₁) (r : FVec Ideal S128x64 φ₂) (j : S2000x64.Idx) :
    matmul (F := Ideal) dot_S2000x128_S128x64_S2000x64_1_0_0_1_n_n none l r (constant (F := Ideal) S2000x64 .f32 0x00000000#32) j
      = ∑ k : Fin 128, l (bRow j k) * r (bCol j k) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = bRow j k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((ValueIdx.contrEquiv1 dot_S2000x128_S128x64_S2000x64_1_0_0_1_n_n 128 rfl rfl).symm k) = bCol j k := funext fun a => Fin.ext (by
    match a with
    | ⟨0, _⟩ => exact (rhs_0 _ _).trans hk
    | ⟨1, _⟩ => exact rhs_1 _ _)
  rw [el, er]

/-! ## The stored value at an entry -/

/-- What the body stores, at entry `j` of the block, from the five loaded blocks. -/
theorem stored_apply (x0 x1 : Vec Ideal S2000x128 .f32) (x2 x3 : Vec Ideal S128x64 .f32) (x4 : Vec Ideal S1x64 .f32) (j : S2000x64.Idx) :
    k2_pay1 (F := Ideal) x0 x1 x2 x3 x4 j
      = (∑ k : Fin 128, x0 (bRow j k) * x2 (bCol j k) + ∑ k : Fin 128, x1 (bRow j k) * x3 (bCol j k)) + x4 (bBias j) := by
  unfold k2_pay1
  simp only [shapeCast_self]
  simp only [ValueIdx.addf_apply]
  rw [blockMatmul_apply, blockMatmul_apply,
    broadcastTo_apply x4 broadcasts_S1x64_S2000x64 j (bBias j) (by intro a; match a with | ⟨0, _⟩ => rfl | ⟨1, _⟩ => rfl)]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the result window sit at row block `t`, column block 0;
    the weights and the bias are one block each. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer's whole-array function of the arrays the region is entered with. -/
theorem flushed_eq (c : Dev nD) (t : Fin cfg2.N) :
    (dat2 V c).flushed 5 t = ((cfg2.win 5).blk t).view.read (Elt Ideal)
      (layerLin (V c main_v36) (V c main_v48) (V c main_arg9) (V c main_arg10) (V c main_v49)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x64) hz, View.ld_unit_zero (S := S1x64) hz]
  obtain ⟨e00, e01, e10, e11, e20, e21, e30, e31, e40, e41, e50, e51⟩ := idx_facts t
  funext j
  refine (stored_apply _ _ _ _ _ j).trans ?_
  show _ = layerLin (V c main_v36) (V c main_v48) (V c main_arg9) (V c main_arg10) (V c main_v49) (((cfg2.win 5).blk t).view.emb j)
  unfold layerLin
  have hj0 : (j 0).val < 2000 := (j 0).isLt
  have hj1 : (j 1).val < 64 := (j 1).isLt
  -- a block's coordinate is index × size + 1 × the coordinate inside the block
  have h0 : ∀ k : Fin 128, ((cfg2.win 0).blk t).view.emb (bRow j k) = rowAt64 (((cfg2.win 5).blk t).view.emb j) k := fun k => by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * k.val = k.val; omega
  have h1 : ∀ k : Fin 128, ((cfg2.win 1).blk t).view.emb (bRow j k) = rowAt64 (((cfg2.win 5).blk t).view.emb j) k := fun k => by
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 128 + 1 * k.val = k.val; omega
  have h2 : ∀ k : Fin 128, ((cfg2.win 2).blk t).view.emb (bCol j k) = colAt64 (((cfg2.win 5).blk t).view.emb j) k := fun k => by
    funext a; apply Fin.ext
    match a with
    | ⟨0, _⟩ => show win2_2.index t (0 : Fin 2) * 128 + 1 * k.val = k.val; omega
    | ⟨1, _⟩ => show win2_2.index t (1 : Fin 2) * 64 + 1 * (j 1).val = win2_5.index t (1 : Fin 2) * 64 + 1 * (j 1).val; omega
  have h3 : ∀ k : Fin 128, ((cfg2.win 3).blk t).view.emb (bCol j k) = colAt64 (((cfg2.win 5).blk t).view.emb j) k := fun k => by
    funext a; apply Fin.ext
    match a with
    | ⟨0, _⟩ => show win2_3.index t (0 : Fin 2) * 128 + 1 * k.val = k.val; omega
    | ⟨1, _⟩ => show win2_3.index t (1 : Fin 2) * 64 + 1 * (j 1).val = win2_5.index t (1 : Fin 2) * 64 + 1 * (j 1).val; omega
  have h4 : ((cfg2.win 4).blk t).view.emb (bBias j) = biasAt64 (((cfg2.win 5).blk t).view.emb j) := by
    funext a; apply Fin.ext
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  refine congrArg₂ (· + ·) (congrArg₂ (· + ·) (Finset.sum_congr rfl fun k _ => ?_) (Finset.sum_congr rfl fun k _ => ?_)) ?_
  · exact congrArg₂ (· * ·) (congrArg (V c main_v36) (h0 k)) (congrArg (V c main_arg9) (h2 k))
  · exact congrArg₂ (· * ·) (congrArg (V c main_v48) (h1 k)) (congrArg (V c main_arg10) (h3 k))
  · exact congrArg (V c main_v49) h4

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v50).slice (win2_5.rect t)).set ↔ _
  rw [View.set_slice_whole, Rect.mem_set_unit]
  exact Iff.rfl

/-- The 50 row blocks tile the array: row `r` is in block `r / 2000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_5 _, ?_⟩
  rw [mem_blk]
  obtain ⟨-, -, -, -, -, -, -, -, -, -, e50, e51⟩ := idx_facts ⟨(i 0).val / 2000, by rw [hN]; omega⟩
  intro a
  match a with
  | ⟨0, _⟩ => show win2_5.index _ (0 : Fin 2) * 2000 ≤ (i 0).val ∧ (i 0).val < win2_5.index _ (0 : Fin 2) * 2000 + 2000; rw [e50]; show (i 0).val / 2000 * 2000 ≤ _ ∧ _ < (i 0).val / 2000 * 2000 + 2000; omega
  | ⟨1, _⟩ => show win2_5.index _ (1 : Fin 2) * 64 ≤ (i 1).val ∧ (i 1).val < win2_5.index _ (1 : Fin 2) * 64 + 64; rw [e51]; omega

/-- THE RESULT ARRAY of region 2 after its last write-back: the output layer of the arrays it was entered with. -/
theorem final (c : Dev nD) :
    (dat2 V c).arrAt 5 cfg2.N = layerLin (V c main_v36) (V c main_v48) (V c main_arg9) (V c main_arg10) (V c main_v49) :=
  (dat2 V c).arrAt_eq_of_cover 5 _ (fun t _ => flushed_eq V c t) cover

end Cert.KernelIdeal.Region2

end
-- ==== Proof.KernelNet.lean ====
/-
  The idealized kernel's result is the network of its argument arrays.

  Region 0 is entered with the input features, their aggregation, the first layer's weights and its bias row, and leaves the
  first hidden layer in its result array; the second stretch aggregates that array, region 1 leaves the second hidden layer,
  the third stretch aggregates it, and region 2 leaves the output layer: `Sage.net`. Indices, inverse degrees and weights
  are carried unchanged through every boundary.
-/
import proofs.«411930_j52673478918617_1_alg».proof.Proof.ChainHost
import proofs.«411930_j52673478918617_1_alg».proof.Proof.Region0
import proofs.«411930_j52673478918617_1_alg».proof.Proof.Region1
import proofs.«411930_j52673478918617_1_alg».proof.Proof.Region2
import proofs.«411930_j52673478918617_1_alg».proof.Proof.KernelIdealRunP

set_option maxRecDepth 16384

noncomputable section

namespace Cert.KernelIdeal.Net

open Idealize.ShloMosaic Idealize.ShloMosaic.TcCoe Idealize.SL.Sem
open Cert.KernelIdeal Cert.KernelIdeal.Gen Cert.KernelIdeal.GenP Cert.KernelIdeal.Chain Cert.Sage

variable (m : (ℓ : Loc nD τ sig) → Buf (Elt Ideal) ℓ) (ρ : Dev nD → PrngReg)

/-! ## After region 0 -/

/-- Region 0's result array: the first hidden layer. -/
theorem h1_at (c : Dev nD) : W2 m ρ c (Proc.devRef .tc main_v22) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Region0.final (V1 m ρ) c).trans ?_)
  show layerRelu (W1 m ρ c (Proc.devRef .tc main_arg0)) (W1 m ρ c (Proc.devRef .tc main_v20)) (W1 m ρ c (Proc.devRef .tc main_arg3)) (W1 m ρ c (Proc.devRef .tc main_arg4)) (W1 m ρ c (Proc.devRef .tc main_v21)) = _
  rw [W1_main_arg0, W1_main_v20, W1_main_arg3, W1_main_arg4, W1_main_v21]
  rfl

/-! ## After region 1 -/

theorem agg1_at (c : Dev nD) : W3 m ρ c (Proc.devRef .tc main_v34) = agg (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  rw [W3_main_v34, h1_at, W2_main_arg1, W2_main_arg2, W2_main_v8]
  rfl

/-- Region 1's result array: the second hidden layer. -/
theorem h2_at (c : Dev nD) : W4 m ρ c (Proc.devRef .tc main_v36) = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Region1.final (V3 m ρ) c).trans ?_)
  show layerRelu (W3 m ρ c (Proc.devRef .tc main_v22)) (W3 m ρ c (Proc.devRef .tc main_v34)) (W3 m ρ c (Proc.devRef .tc main_arg6)) (W3 m ρ c (Proc.devRef .tc main_arg7)) (W3 m ρ c (Proc.devRef .tc main_v35)) = _
  rw [W3_main_v22_kept, h1_at, agg1_at, W3_main_arg6_kept, W2_main_arg6, W3_main_arg7_kept, W2_main_arg7, W3_main_v35, W2_main_arg8]
  rfl

/-! ## After region 2 -/

theorem agg2_at (c : Dev nD) : W5 m ρ c (Proc.devRef .tc main_v48) = agg (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) := by
  rw [W5_main_v48, h2_at, W4_main_arg1_kept, W3_main_arg1_kept, W2_main_arg1, W4_main_arg2_kept, W3_main_arg2_kept, W2_main_arg2,
    W4_main_v8_kept, W3_main_v8_kept, W2_main_v8]
  rfl

/-- Region 2's result array, the program's result: the network. -/
theorem out_at (c : Dev nD) : W6 m ρ c (Proc.devRef .tc main_v50) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Region2.final (V5 m ρ) c).trans ?_)
  show layerLin (W5 m ρ c (Proc.devRef .tc main_v36)) (W5 m ρ c (Proc.devRef .tc main_v48)) (W5 m ρ c (Proc.devRef .tc main_arg9)) (W5 m ρ c (Proc.devRef .tc main_arg10)) (W5 m ρ c (Proc.devRef .tc main_v49)) = _
  rw [W5_main_v36_kept, h2_at, agg2_at, W5_main_arg9_kept, W4_main_arg9_kept, W3_main_arg9_kept, W2_main_arg9,
    W5_main_arg10_kept, W4_main_arg10_kept, W3_main_arg10_kept, W2_main_arg10, W5_main_v49, W4_main_arg11_kept, W3_main_arg11_kept, W2_main_arg11]
  rfl

/-! ## The run -/

/-- Every weakly fair execution of the idealized kernel ends with its result array at the network of the launch arrays, the
    arguments unchanged. -/
theorem run : θ_run defs (onTc (τ := τ) (main (F := Ideal))) ⟨m, fun _ => 0, ρ⟩ (fun r => ∀ c : Dev nD,
      r.2.mem ((c.tc : Thread nD τ).loc main_v50) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (out_at m ρ c), (h c).2⟩) (run_values m ρ)

end Cert.KernelIdeal.Net

end
-- ==== Proof.RefStages.lean ====
/-
  The reference, stage by stage, is the network of `Sage.net`.

  The reference computes each layer on whole arrays: two matrix products, their sum, the bias broadcast down the rows,
  and (for the hidden layers) the maximum with zero. Read at an entry, a matrix product on the extended reals is the sum
  over the contracted column, so each stage is `Sage.layerRelu` / `Sage.layerLin` of the stage before it; the aggregation
  between two layers is the shared host chain `Sage.agg`, recognised without being opened.
-/
import proofs.«411930_j52673478918617_1_alg».proof.Proof.Gen.ReferenceIdeal.Read
import proofs.«411930_j52673478918617_1_alg».proof.Proof.SageNet
import Idealize.ShloMosaic.Lib.Pipeline.Value
import Idealize.ShloMosaic.Lib.ValueIdx

noncomputable section

namespace Cert.ReferenceIdeal.Stages

open Idealize.ShloMosaic Idealize.ShloMosaic.TcCoe Cert.ReferenceIdeal Cert.ReferenceIdeal.Gen Cert.ReferenceIdeal.Read

/-! ## The aggregations are the shared host chain -/

section
variable {F : FTy → Type} [FloatOps F]

theorem agg0_eq (x0 : (⟨S100000x128, .f32⟩ : BufTy).Contents (Elt F)) (x1 x2 : (⟨S1600000, .i32⟩ : BufTy).Contents (Elt F)) :
    val_main_v20 (F := F) x0 x1 x2 = Cert.Sage.agg x0 x1 x2 := rfl

theorem agg1_eq (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) :
    val_main_v39 (F := F) x0 x1 x2 x3 x4 x5 = Cert.Sage.agg (val_main_v27 (F := F) x0 x1 x2 x3 x4 x5) x1 x2 := rfl

theorem agg2_eq (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) :
    val_main_v58 (F := F) x0 x1 x2 x3 x4 x5 x6 x7 x8 = Cert.Sage.agg (val_main_v46 (F := F) x0 x1 x2 x3 x4 x5 x6 x7 x8) x1 x2 := rfl

/-- The bias row read at a column is the bias vector there. -/
theorem biasRow_apply (b : (⟨S128, .f32⟩ : BufTy).Contents (Elt F)) (i : S100000x128.Idx) (k : S128.Idx) (hk : (k 0).val = (i 1).val) :
    Cert.Sage.biasRow b (Cert.Sage.biasAt i) = b k := by
  unfold Cert.Sage.biasRow
  exact shapeCast_apply b _ (Cert.Sage.biasAt i) k (by
    rw [Shape.rowMajor_val_one, Shape.rowMajor_val_two, hk]; show (i 1).val = 0 * 128 + (i 1).val; omega)

theorem biasRow64_apply (b : (⟨S64, .f32⟩ : BufTy).Contents (Elt F)) (i : S100000x64.Idx) (k : S64.Idx) (hk : (k 0).val = (i 1).val) :
    Cert.Sage.biasRow64 b (Cert.Sage.biasAt64 i) = b k := by
  unfold Cert.Sage.biasRow64
  exact shapeCast_apply b _ (Cert.Sage.biasAt64 i) k (by
    rw [Shape.rowMajor_val_one, Shape.rowMajor_val_two, hk]; show (i 1).val = 0 * 64 + (i 1).val; omega)
end

/-! ## The three layers -/

/-- The first hidden stage. -/
theorem h1_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) :
    val_main_v27 (F := Ideal) x0 x1 x2 x3 x4 x5 = Cert.Sage.hidden1 x0 x1 x2 x3 x4 x5 := by
  funext i
  rw [val_main_v27_apply, val_main_v26_apply, val_main_v23_apply, val_main_v21_apply, val_main_v22_apply, val_main_v25_apply,
    val_main_v24_apply, val_main_call0_v0_apply, val_main_call0_cst_apply, agg0_eq]
  unfold Cert.Sage.hidden1 Cert.Sage.layerRelu
  have el1 : ∀ k : Fin 128, lidx_main_v21 i k = Cert.Sage.rowAt i k := fun k => funext fun a => by
    match a with
    | ⟨0, _⟩ => rfl
    | ⟨1, _⟩ => rfl
  have er1 : ∀ k : Fin 128, ridx_main_v21 i k = Cert.Sage.colAt i k := fun k => funext fun a => by
    match a with
    | ⟨0, _⟩ => rfl
    | ⟨1, _⟩ => rfl
  have el2 : ∀ k : Fin 128, lidx_main_v22 i k = Cert.Sage.rowAt i k := fun k => funext fun a => by
    match a with
    | ⟨0, _⟩ => rfl
    | ⟨1, _⟩ => rfl
  have er2 : ∀ k : Fin 128, ridx_main_v22 i k = Cert.Sage.colAt i k := fun k => funext fun a => by
    match a with
    | ⟨0, _⟩ => rfl
    | ⟨1, _⟩ => rfl
  simp only [el1, er1, el2, er2]
  rw [biasRow_apply x5 i (idx_main_v24 (idx_main_v25 i)) rfl]
  rfl

/-- The second hidden stage. -/
theorem h2_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v46 (F := Ideal) x0 x1 x2 x3 x4 x5 x6 x7 x8 = Cert.Sage.hidden2 x0 x1 x2 x3 x4 x5 x6 x7 x8 := by
  funext i
  rw [val_main_v46_apply, val_main_v45_apply, val_main_v42_apply, val_main_v40_apply, val_main_v41_apply, val_main_v44_apply,
    val_main_v43_apply, val_main_call1_v0_apply, val_main_call1_cst_apply, agg1_eq, h1_eq]
  unfold Cert.Sage.hidden2 Cert.Sage.layerRelu
  have el1 : ∀ k : Fin 128, lidx_main_v40 i k = Cert.Sage.rowAt i k := fun k => funext fun a => by
    match a with
    | ⟨0, _⟩ => rfl
    | ⟨1, _⟩ => rfl
  have er1 : ∀ k : Fin 128, ridx_main_v40 i k = Cert.Sage.colAt i k := fun k => funext fun a => by
    match a with
    | ⟨0, _⟩ => rfl
    | ⟨1, _⟩ => rfl
  have el2 : ∀ k : Fin 128, lidx_main_v41 i k = Cert.Sage.rowAt i k := fun k => funext fun a => by
    match a with
    | ⟨0, _⟩ => rfl
    | ⟨1, _⟩ => rfl
  have er2 : ∀ k : Fin 128, ridx_main_v41 i k = Cert.Sage.colAt i k := fun k => funext fun a => by
    match a with
    | ⟨0, _⟩ => rfl
    | ⟨1, _⟩ => rfl
  simp only [el1, er1, el2, er2]
  rw [biasRow_apply x8 i (idx_main_v43 (idx_main_v44 i)) rfl]
  rfl

/-- The output stage. -/
theorem out_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v64 (F := Ideal) x0 x1 x2 x3 x4 x5 x6 x7 x8 x9 x10 x11 = Cert.Sage.net x0 x1 x2 x3 x4 x5 x6 x7 x8 x9 x10 x11 := by
  funext i
  rw [val_main_v64_apply, val_main_v61_apply, val_main_v59_apply, val_main_v60_apply, val_main_v63_apply, val_main_v62_apply,
    agg2_eq, h2_eq]
  unfold Cert.Sage.net Cert.Sage.layerLin
  have el1 : ∀ k : Fin 128, lidx_main_v59 i k = Cert.Sage.rowAt64 i k := fun k => funext fun a => by
    match a with
    | ⟨0, _⟩ => rfl
    | ⟨1, _⟩ => rfl
  have er1 : ∀ k : Fin 128, ridx_main_v59 i k = Cert.Sage.colAt64 i k := fun k => funext fun a => by
    match a with
    | ⟨0, _⟩ => rfl
    | ⟨1, _⟩ => rfl
  have el2 : ∀ k : Fin 128, lidx_main_v60 i k = Cert.Sage.rowAt64 i k := fun k => funext fun a => by
    match a with
    | ⟨0, _⟩ => rfl
    | ⟨1, _⟩ => rfl
  have er2 : ∀ k : Fin 128, ridx_main_v60 i k = Cert.Sage.colAt64 i k := fun k => funext fun a => by
    match a with
    | ⟨0, _⟩ => rfl
    | ⟨1, _⟩ => rfl
  simp only [el1, er1, el2, er2]
  rw [biasRow64_apply x11 i (idx_main_v62 (idx_main_v63 i)) rfl]
  rfl

/-- The reference's result term is the network of its argument arrays. -/
theorem result_eq (m : (ℓ : Loc nD τ sig) → Buf (Elt Ideal) ℓ) (c : Dev nD) :
    Cert.ReferenceIdeal.Value.res_main_v64 m c
      = Cert.Sage.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) :=
  (val_main_v64_eq (F := Ideal) m c).trans (out_eq _ _ _ _ _ _ _ _ _ _ _ _)

end Cert.ReferenceIdeal.Stages

end
-- ==== Proof.lean ====
/-
  The certificate of a three-layer GraphSAGE network: a Pallas kernel per layer's dense combine step
  (`h · Ws + agg · Wn + b`, clamped at zero in the two hidden layers) among host stretches that compute the in-degrees and
  the mean aggregation over in-neighbours, against a jnp reference that computes the same layers on whole arrays.

  On the extended reals both programs compute ONE function of the twelve argument arrays, `Sage.net`:
  * the kernel's side — every region's result array is the layer's whole-array function of the arrays the region is
    entered with (50 row blocks of 2000 rows tile the 100000 rows; a block's matrix product into a zero accumulator is the plain
    sum over the 128 contracted columns; changes of float format are the identity), and the host stretches between the regions
    carry indices, inverse degrees and weights unchanged and aggregate the previous region's result;
  * the reference's side — each whole-array stage read at an entry is the same sum, the same bias and the same clamp.
  The aggregation (gather, scatter-add, scaling) is the same chain of host operations in both programs and is never opened.
  No law of the extended reals is used beyond reading each operation at an index: the two sides group the three summands alike,
  so the finiteness precondition is not needed for the value claim.
  The three frames: the two kernels' from the launch theorem over @main's six segments, the reference's from its run.
  The idealization rewrote no operation, so `preserves` has nothing to state.
-/
import proofs.«411930_j52673478918617_1_alg».proof.Defs
import proofs.«411930_j52673478918617_1_alg».proof.Proof.Gen.Kernel
import proofs.«411930_j52673478918617_1_alg».proof.Proof.Gen.KernelIdeal
import proofs.«411930_j52673478918617_1_alg».proof.Proof.Gen.ReferenceIdeal
import proofs.«411930_j52673478918617_1_alg».proof.Proof.Gen.ReferenceIdeal.Run
import proofs.«411930_j52673478918617_1_alg».proof.Proof.Gen.Pre_finite_inputs
import proofs.«411930_j52673478918617_1_alg».proof.Proof.KernelFrameP
import proofs.«411930_j52673478918617_1_alg».proof.Proof.KernelIdealFrameP
import proofs.«411930_j52673478918617_1_alg».proof.Proof.KernelNet
import proofs.«411930_j52673478918617_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end at `Sage.net` of those arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Stages.result_eq]
  obtain ⟨a0, a1, a2, a3, a4, a5, a6, a7, a8, a9, a10, a11⟩ := hagree c
  rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
